-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S1x4096 : Shape := ⟨2, ![1, 4096]⟩
abbrev S4097x1024 : Shape := ⟨2, ![4097, 1024]⟩
abbrev S4097 : Shape := ⟨1, ![4097]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S4097x1024 : S_.BroadcastsInDim S4097x1024 (![] : Fin 0 → Fin S4097x1024.rank)
  reducesTo_S4097x1024_S_d0_1 : S4097x1024.ReducesTo [0, 1] S_
  bcast_S_S4097 : S_.BroadcastsInDim S4097 (![] : Fin 0 → Fin S4097.rank)
  reducesTo_S4097_S_d0 : S4097.ReducesTo [0] S_

variable [Facts]

def fn_part2 {F : FTy → Type} [FloatOps F] (main_arg7 : FVec F S4097x1024 .f32) (main_arg8 : FVec F S4097x1024 .f32) (main_arg9 : FVec F S4097 .f32) (main_v33 : IVec S_ 1) : IVec S_ 1 :=
  let main_v34 : FVec F S4097x1024 .f32 := Host.absf main_arg7
  let main_cst_12 : FVec F S_ .f32 := constant S_ .f32 0x7F800000#32
  let main_v35 : FVec F S4097x1024 .f32 := broadcastInDim S4097x1024 ![] bcast_S_S4097x1024 main_cst_12
  let main_v36 : IVec S4097x1024 1 := cmpf .olt main_v34 main_v35
  let main_c_13 : IVec S_ 1 := constantI S_ 1 1#1
  let main_v37 : IVec S_ 1 := (fun x v => Host.reduce IntOp.andi x v reducesTo_S4097x1024_S_d0_1 h_S_) main_v36 main_c_13
  let main_v38 : IVec S_ 1 := andi main_v33 main_v37
  let main_v39 : FVec F S4097x1024 .f32 := Host.absf main_arg8
  let main_cst_14 : FVec F S_ .f32 := constant S_ .f32 0x7F800000#32
  let main_v40 : FVec F S4097x1024 .f32 := broadcastInDim S4097x1024 ![] bcast_S_S4097x1024 main_cst_14
  let main_v41 : IVec S4097x1024 1 := cmpf .olt main_v39 main_v40
  let main_c_15 : IVec S_ 1 := constantI S_ 1 1#1
  let main_v42 : IVec S_ 1 := (fun x v => Host.reduce IntOp.andi x v reducesTo_S4097x1024_S_d0_1 h_S_) main_v41 main_c_15
  let main_v43 : IVec S_ 1 := andi main_v38 main_v42
  let main_v44 : FVec F S4097 .f32 := Host.absf main_arg9
  let main_cst_16 : FVec F S_ .f32 := constant S_ .f32 0x7F800000#32
  let main_v45 : FVec F S4097 .f32 := broadcastInDim S4097 ![] bcast_S_S4097 main_cst_16
  let main_v46 : IVec S4097 1 := cmpf .olt main_v44 main_v45
  let main_c_17 : IVec S_ 1 := constantI S_ 1 1#1
  let main_v47 : IVec S_ 1 := (fun x v => Host.reduce IntOp.andi x v reducesTo_S4097_S_d0 h_S_) main_v46 main_c_17
  let main_v48 : IVec S_ 1 := andi main_v43 main_v47
  main_v48

def fn_part1 {F : FTy → Type} [FloatOps F] (main_arg4 : FVec F S1x4096 .f32) (main_arg5 : FVec F S1x4096 .f32) (main_arg6 : FVec F S4097x1024 .f32) (main_arg7 : FVec F S4097x1024 .f32) (main_arg8 : FVec F S4097x1024 .f32) (main_arg9 : FVec F S4097 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S4097x1024 .f32 := Host.absf main_arg6
  let main_cst_10 : FVec F S_ .f32 := constant S_ .f32 0x7F800000#32
  let main_v30 : FVec F S4097x1024 .f32 := broadcastInDim S4097x1024 ![] bcast_S_S4097x1024 main_cst_10
  let main_v31 : IVec S4097x1024 1 := cmpf .olt main_v29 main_v30
  let main_c_11 : IVec S_ 1 := constantI S_ 1 1#1
  let main_v32 : IVec S_ 1 := (fun x v => Host.reduce IntOp.andi x v reducesTo_S4097x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x4096 .f32) (main_arg1 : FVec F S1024x4096 .f32) (main_arg2 : FVec F S1024x4096 .f32) (main_arg3 : FVec F S1024x4096 .f32) (main_arg4 : FVec F S1x4096 .f32) (main_arg5 : FVec F S1x4096 .f32) (main_arg6 : FVec F S4097x1024 .f32) (main_arg7 : FVec F S4097x1024 .f32) (main_arg8 : FVec F S4097x1024 .f32) (main_arg9 : FVec F S4097 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_v13 main_v16
-- ==== Kernel.lean ====
abbrev S1024x4096 : Shape := ⟨2, ![1024, 4096]⟩
abbrev S1x4096 : Shape := ⟨2, ![1, 4096]⟩
abbrev S4097x1024 : Shape := ⟨2, ![4097, 1024]⟩
abbrev S4097 : Shape := ⟨1, ![4097]⟩
abbrev S4097x1 : Shape := ⟨2, ![4097, 1]⟩
abbrev S1024x128 : Shape := ⟨2, ![1024, 128]⟩
abbrev S1x128 : Shape := ⟨2, ![1, 128]⟩
abbrev S4097x128 : Shape := ⟨2, ![4097, 128]⟩

abbrev nBuf : Space → Nat
  | .hbm => 17
  | .vmem => 22
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1x4096, .f32⟩
  | .hbm, ⟨5, _⟩ => ⟨S1x4096, .f32⟩
  | .hbm, ⟨6, _⟩ => ⟨S4097x1024, .f32⟩
  | .hbm, ⟨7, _⟩ => ⟨S4097x1024, .f32⟩
  | .hbm, ⟨8, _⟩ => ⟨S4097x1024, .f32⟩
  | .hbm, ⟨9, _⟩ => ⟨S4097, .f32⟩
  | .hbm, ⟨10, _⟩ => ⟨S4097x1024, .bf16⟩
  | .hbm, ⟨11, _⟩ => ⟨S4097x1024, .bf16⟩
  | .hbm, ⟨12, _⟩ => ⟨S4097x1024, .bf16⟩
  | .hbm, ⟨13, _⟩ => ⟨S4097x1, .f32⟩
  | .hbm, ⟨14, _⟩ => ⟨S1024x4096, .f32⟩
  | .hbm, ⟨15, _⟩ => ⟨S1024x4096, .f32⟩
  | .hbm, ⟨16, _⟩ => ⟨S1x4096, .f32⟩
  | .local _ .vmem, ⟨0, _⟩ => ⟨S4097x1024, .bf16⟩
  | .local _ .vmem, ⟨1, _⟩ => ⟨S4097x1024, .bf16⟩
  | .local _ .vmem, ⟨2, _⟩ => ⟨S4097x1024, .bf16⟩
  | .local _ .vmem, ⟨3, _⟩ => ⟨S4097x1, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x128, .f32⟩
  | .local _ .vmem, ⟨21, _⟩ => ⟨S1x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4097x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4097x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4097x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4097x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S4097_S4097x1 : S4097.ShapeCasts S4097x1
  inb_S4097x1024_S4097x1024_0_0 : ∀ a, (![0, 0] : Fin 2 → Nat) a + S4097x1024.size a ≤ S4097x1024.size a
  h_S4097x1024 : 0 < S4097x1024.numel
  shapeCasts_S4097x1024_S4097x1024 : S4097x1024.ShapeCasts S4097x1024
  inb_S4097x1_S4097x1_0_0 : ∀ a, (![0, 0] : Fin 2 → Nat) a + S4097x1.size a ≤ S4097x1.size a
  h_S4097x1 : 0 < S4097x1.numel
  shapeCasts_S4097x1_S4097x1 : S4097x1.ShapeCasts S4097x1
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  broadcasts_S1x128_S4097x128 : S1x128.Broadcasts S4097x128
  broadcasts_S4097x1_S4097x128 : S4097x1.Broadcasts S4097x128
  slices_S4097x128_o0_0_S1024x128 : S4097x128.Slices ![0, 0] S1024x128
  slices_S4097x128_o1024_0_S1024x128 : S4097x128.Slices ![1024, 0] S1024x128
  slices_S4097x128_o2048_0_S1024x128 : S4097x128.Slices ![2048, 0] S1024x128
  slices_S4097x128_o3072_0_S1024x128 : S4097x128.Slices ![3072, 0] S1024x128
  slices_S4097x128_o4096_0_S1x128 : S4097x128.Slices ![4096, 0] S1x128
  broadcasts_S1x128_S1024x128 : S1x128.Broadcasts S1024x128
  natLt_1_32 : 1 < 32
  dot_S4097x1024_S1024x128_S4097x128_1_0_0_1_n_n_wf : DotDims.WF S4097x1024 S1024x128 S4097x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4097x1024.size a ≤ S4097x1024.size a
  hwx0_0 : ∀ i : grid0.Coords, EltTy.bits .bf16 = 32 ∨ (Rect.block (s := S4097x1024) S4097x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4097x1024.size a ≤ S4097x1024.size a
  hwx0_1 : ∀ i : grid0.Coords, EltTy.bits .bf16 = 32 ∨ (Rect.block (s := S4097x1024) S4097x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4097x1024.size a ≤ S4097x1024.size a
  hwx0_2 : ∀ i : grid0.Coords, EltTy.bits .bf16 = 32 ∨ (Rect.block (s := S4097x1024) S4097x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4097x1.size a ≤ S4097x1.size a
  hwx0_3 : ∀ i : grid0.Coords, EltTy.bits .f32 = 32 ∨ (Rect.block (s := S4097x1) S4097x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x4096.size a
  hwx0_4 : ∀ i : grid0.Coords, EltTy.bits .f32 = 32 ∨ (Rect.block (s := S1024x4096) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x4096.size a
  hwx0_5 : ∀ i : grid0.Coords, EltTy.bits .f32 = 32 ∨ (Rect.block (s := S1024x4096) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x4096.size a
  hwx0_6 : ∀ i : grid0.Coords, EltTy.bits .f32 = 32 ∨ (Rect.block (s := S1024x4096) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x4096.size a
  hwx0_7 : ∀ i : grid0.Coords, EltTy.bits .f32 = 32 ∨ (Rect.block (s := S1024x4096) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x4096.size a
  hwx0_8 : ∀ i : grid0.Coords, EltTy.bits .f32 = 32 ∨ (Rect.block (s := S1x4096) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x4096.size a
  hwx0_9 : ∀ i : grid0.Coords, EltTy.bits .f32 = 32 ∨ (Rect.block (s := S1x4096) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S1024x4096.size a
  hwx0_10 : ∀ i : grid0.Coords, EltTy.bits .f32 = 32 ∨ (Rect.block (s := S1024x4096) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S1024x4096.size a
  hwx0_11 : ∀ i : grid0.Coords, EltTy.bits .f32 = 32 ∨ (Rect.block (s := S1024x4096) S1024x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x4096.size a
  hwx0_12 : ∀ i : grid0.Coords, EltTy.bits .f32 = 32 ∨ (Rect.block (s := S1x4096) S1x128.size (cc0_transform_12 i) (hinb0_12 i)).WholeWords (EltTy.packing .f32)

variable [Facts₀]

def dot_S4097x1024_S1024x128_S4097x128_1_0_0_1_n_n : DotDims S4097x1024 S1024x128 S4097x128 where
  lhsContracting := [1]
  rhsContracting := [0]
  lhsNonContracting := [0]
  rhsNonContracting := [1]
  lhsBatch := []
  rhsBatch := []
  wf := dot_S4097x1024_S1024x128_S4097x128_1_0_0_1_n_n_wf

abbrev win0_0 : Pipeline.Window sig grid0 :=
  Pipeline.Window.ofSpec (Memref.whole main_v0) S4097x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4097x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4097x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4097x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S1024x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S1024x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S1024x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_2) S1x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S1x4096 : Shape := ⟨2, ![1, 4096]⟩
abbrev S4097x1024 : Shape := ⟨2, ![4097, 1024]⟩
abbrev S4097 : Shape := ⟨1, ![4097]⟩
abbrev S4097x4096 : Shape := ⟨2, ![4097, 4096]⟩
abbrev S4097x1 : Shape := ⟨2, ![4097, 1]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1x4096, .f32⟩
  | .hbm, ⟨5, _⟩ => ⟨S1x4096, .f32⟩
  | .hbm, ⟨6, _⟩ => ⟨S4097x1024, .f32⟩
  | .hbm, ⟨7, _⟩ => ⟨S4097x1024, .f32⟩
  | .hbm, ⟨8, _⟩ => ⟨S4097x1024, .f32⟩
  | .hbm, ⟨9, _⟩ => ⟨S4097, .f32⟩
  | .hbm, ⟨10, _⟩ => ⟨S4097x4096, .f32⟩
  | .hbm, ⟨11, _⟩ => ⟨S4097x4096, .f32⟩
  | .hbm, ⟨12, _⟩ => ⟨S4097x4096, .f32⟩
  | .hbm, ⟨13, _⟩ => ⟨S4097x4096, .f32⟩
  | .hbm, ⟨14, _⟩ => ⟨S4097x4096, .f32⟩
  | .hbm, ⟨15, _⟩ => ⟨S4097x4096, .f32⟩
  | .hbm, ⟨16, _⟩ => ⟨S4097x4096, .f32⟩
  | .hbm, ⟨17, _⟩ => ⟨S4097x4096, .f32⟩
  | .hbm, ⟨18, _⟩ => ⟨S4097x4096, .f32⟩
  | .hbm, ⟨19, _⟩ => ⟨S4097x1, .f32⟩
  | .hbm, ⟨20, _⟩ => ⟨S4097x4096, .f32⟩
  | .hbm, ⟨21, _⟩ => ⟨S4097x4096, .f32⟩
  | .hbm, ⟨22, _⟩ => ⟨S1024x4096, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S_, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | .hbm, ⟨37, _⟩ => ⟨S_, .f32⟩
  | .hbm, ⟨38, _⟩ => ⟨S1024x4096, .f32⟩
  | .hbm, ⟨39, _⟩ => ⟨S1024x4096, .f32⟩
  | .hbm, ⟨40, _⟩ => ⟨S1024x4096, .f32⟩
  | .hbm, ⟨41, _⟩ => ⟨S1024x4096, .f32⟩
  | .hbm, ⟨42, _⟩ => ⟨S1024x4096, .f32⟩
  | .hbm, ⟨43, _⟩ => ⟨S_, .f32⟩
  | .hbm, ⟨44, _⟩ => ⟨S1024x4096, .f32⟩
  | .hbm, ⟨45, _⟩ => ⟨S1024x4096, .f32⟩
  | .hbm, ⟨46, _⟩ => ⟨S_, .f32⟩
  | .hbm, ⟨47, _⟩ => ⟨S1024x4096, .f32⟩
  | .hbm, ⟨48, _⟩ => ⟨S1024x4096, .f32⟩
  | .hbm, ⟨49, _⟩ => ⟨S1024x4096, .f32⟩
  | .hbm, ⟨50, _⟩ => ⟨S1024x4096, .f32⟩
  | .hbm, ⟨51, _⟩ => ⟨S1x4096, .f32⟩
  | .hbm, ⟨52, _⟩ => ⟨S_, .f32⟩
  | .hbm, ⟨53, _⟩ => ⟨S1x4096, .f32⟩
  | .hbm, ⟨54, _⟩ => ⟨S1x4096, .f32⟩
  | .hbm, ⟨55, _⟩ => ⟨S_, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x4096, .f32⟩
  | .hbm, ⟨65, _⟩ => ⟨S1x4096, .f32⟩
  | .hbm, ⟨66, _⟩ => ⟨S_, .f32⟩
  | .hbm, ⟨67, _⟩ => ⟨S1x4096, .f32⟩
  | .hbm, ⟨68, _⟩ => ⟨S1x4096, .f32⟩
  | .hbm, ⟨69, _⟩ => ⟨S1024x4096, .f32⟩
  | .hbm, ⟨70, _⟩ => ⟨S1024x4096, .f32⟩
  | .hbm, ⟨71, _⟩ => ⟨S1024x4096, .f32⟩
  | .hbm, ⟨72, _⟩ => ⟨S_, .f32⟩
  | .hbm, ⟨73, _⟩ => ⟨S1x4096, .f32⟩
  | .hbm, ⟨74, _⟩ => ⟨S1x4096, .f32⟩
  | .hbm, ⟨75, _⟩ => ⟨S_, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1024x4096, .f32⟩
  | .hbm, ⟨80, _⟩ => ⟨S1024x4096, .f32⟩
  | .hbm, ⟨81, _⟩ => ⟨S1024x4096, .f32⟩
  | .hbm, ⟨82, _⟩ => ⟨S_, .f32⟩
  | .hbm, ⟨83, _⟩ => ⟨S1x4096, .f32⟩
  | .hbm, ⟨84, _⟩ => ⟨S1x4096, .f32⟩
  | .hbm, ⟨85, _⟩ => ⟨S1x4096, .f32⟩
  | .hbm, ⟨86, _⟩ => ⟨S1024x4096, .f32⟩
  | .hbm, ⟨87, _⟩ => ⟨S1024x4096, .f32⟩
  | .hbm, ⟨88, _⟩ => ⟨S1024x4096, .f32⟩
  | .hbm, ⟨89, _⟩ => ⟨S1024x4096, .f32⟩
  | .hbm, ⟨90, _⟩ => ⟨S1024x4096, .f32⟩
  | .hbm, ⟨91, _⟩ => ⟨S1024x4096, .f32⟩
  | .hbm, ⟨92, _⟩ => ⟨S1024x4096, .f32⟩
  | .hbm, ⟨93, _⟩ => ⟨S1024x4096, .f32⟩
  | .hbm, ⟨94, _⟩ => ⟨S1024x4096, .f32⟩
  | .hbm, ⟨95, _⟩ => ⟨S1024x4096, .f32⟩
  | .hbm, ⟨96, _⟩ => ⟨S_, .f32⟩
  | .hbm, ⟨97, _⟩ => ⟨S1x4096, .f32⟩
  | .hbm, ⟨98, _⟩ => ⟨S1x4096, .f32⟩
  | .hbm, ⟨99, _⟩ => ⟨S_, .f32⟩
  | .hbm, ⟨100, _⟩ => ⟨S1x4096, .f32⟩
  | .hbm, ⟨101, _⟩ => ⟨S1x4096, .f32⟩
  | .hbm, ⟨102, _⟩ => ⟨S1x4096, .f32⟩
  | .hbm, ⟨103, _⟩ => ⟨S1024x4096, .f32⟩
  | .hbm, ⟨104, _⟩ => ⟨S1024x4096, .f32⟩
  | .hbm, ⟨105, _⟩ => ⟨S1024x4096, .f32⟩
  | .hbm, ⟨106, _⟩ => ⟨S_, .f32⟩
  | .hbm, ⟨107, _⟩ => ⟨S1x4096, .f32⟩
  | .hbm, ⟨108, _⟩ => ⟨S1x4096, .f32⟩
  | .hbm, ⟨109, _⟩ => ⟨S1x4096, .f32⟩
  | .hbm, ⟨110, _⟩ => ⟨S1024x4096, .f32⟩
  | .hbm, ⟨111, _⟩ => ⟨S1024x4096, .f32⟩
  | .hbm, ⟨112, _⟩ => ⟨S1024x4096, .f32⟩
  | .hbm, ⟨113, _⟩ => ⟨S1024x4096, .f32⟩
  | .hbm, ⟨114, _⟩ => ⟨S_, .f32⟩
  | .hbm, ⟨115, _⟩ => ⟨S1x4096, .f32⟩
  | .hbm, ⟨116, _⟩ => ⟨S1x4096, .i1⟩
  | .hbm, ⟨117, _⟩ => ⟨S1x4096, .f32⟩
  | .hbm, ⟨118, _⟩ => ⟨S1x4096, .f32⟩
  | .hbm, ⟨119, _⟩ => ⟨S1x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  bcast_S1x4096_S4097x4096_0_1 : S1x4096.BroadcastsInDim S4097x4096 (![0, 1] : Fin 2 → Fin S4097x4096.rank)
  bcast_S4097_S4097x1_0 : S4097.BroadcastsInDim S4097x1 (![0] : Fin 1 → Fin S4097x1.rank)
  bcast_S4097x1_S4097x4096_0_1 : S4097x1.BroadcastsInDim S4097x4096 (![0, 1] : Fin 2 → Fin S4097x4096.rank)
  slices_S4097x4096_S1024x4096_0_0 : S4097x4096.Slices ![0, 0] S1024x4096
  bcast_S_S1024x4096 : S_.BroadcastsInDim S1024x4096 (![] : Fin 0 → Fin S1024x4096.rank)
  slices_S4097x4096_S1024x4096_1024_0 : S4097x4096.Slices ![1024, 0] S1024x4096
  slices_S4097x4096_S1024x4096_2048_0 : S4097x4096.Slices ![2048, 0] S1024x4096
  slices_S4097x4096_S1024x4096_3072_0 : S4097x4096.Slices ![3072, 0] S1024x4096
  slices_S4097x4096_S1x4096_4096_0 : S4097x4096.Slices ![4096, 0] S1x4096
  bcast_S_S1x4096 : S_.BroadcastsInDim S1x4096 (![] : Fin 0 → Fin S1x4096.rank)
  bcast_S1x4096_S1024x4096_0_1 : S1x4096.BroadcastsInDim S1024x4096 (![0, 1] : Fin 2 → Fin S1024x4096.rank)
  dot_S4097x1024_S1024x4096_S4097x4096_1_0_0_1_n_n_wf : DotDims.WF S4097x1024 S1024x4096 S4097x4096 [1] [0] [0] [1] [] []

variable [Facts₀]

def dot_S4097x1024_S1024x4096_S4097x4096_1_0_0_1_n_n : DotDims S4097x1024 S1024x4096 S4097x4096 where
  lhsContracting := [1]
  rhsContracting := [0]
  lhsNonContracting := [0]
  rhsNonContracting := [1]
  lhsBatch := []
  rhsBatch := []
  wf := dot_S4097x1024_S1024x4096_S4097x4096_1_0_0_1_n_n_wf

class Facts : Prop extends Facts₀ where

variable [Facts]
-- ==== Proof.CellSpec.lean ====
/-
  One batch column of a hierarchical multiscale LSTM cell, on the extended reals.

  The cell's pre-activation has 4·1024 + 1 rows. Row q of it, for one batch column, is

      pre q = Σₖ W01(q,k)·hb(k) + z·Σₖ U21(q,k)·ht(k) + zb·Σₖ U11(q,k)·h(k) + bias(q),

  where hb, ht, h are the column's bottom, top and recurrent hidden vectors and z, zb the column's two boundary
  scalars. Rows 0…1023 pass through the logistic function to give the forget gate, rows 1024…2047 the input gate,
  rows 2048…3071 the output gate; rows 3072…4095 pass through tanh to give the candidate; the last row, 4096, is
  clamped to [0, 1] after the affine map x ↦ (x·1 + 1)·½ and gives the boundary estimate. The new cell state is

      c' = z·(i·g) + ((1 − z)·(1 − zb))·c + ((1 − z)·zb)·(f·c + i·g),

  the new hidden state

      h' = (z·o)·tanh c' + ((1 − z)·(1 − zb))·h + (((1 − z)·zb)·o)·tanh c',

  and the new boundary is 1 where the estimate exceeds ½ and 0 elsewhere. Everything is a function of ONE column of
  the batch: no column reads another.

  Three facts about single extended reals close the file. Dividing by two is multiplying by one half. The quotient
  1 / (1 + e^(−x)) is the logistic function at every extended real, the infinities included. And for an estimate a in
  [0, 1] and a bit s, a + (s − a) is s: the estimate is a real number, so the sum cancels.
-/
import Idealize.ShloMosaic.PureOps.Ideal.Laws
import Idealize.ShloMosaic.Lib.ValueIdx
import Idealize.ShloMosaic.Lib.IdealHost

noncomputable section

namespace Cert.Cell

open Idealize.ShloMosaic Idealize.ShloMosaic.ValueIdx

/-- The single-precision pattern of one, of zero, of one half and of two, each read as an extended real. -/
abbrev one : EReal := Ideal.ofBits .f32 0x3F800000#32
abbrev zero : EReal := Ideal.ofBits .f32 0x00000000#32
abbrev half : EReal := Ideal.ofBits .f32 0x3F000000#32
abbrev two : EReal := Ideal.ofBits .f32 0x40000000#32

/-! ## One column of the batch -/

section Column

variable (W01 U21 U11 : (⟨2, ![4097, 1024]⟩ : Shape).Idx → EReal) (bias : Fin 4097 → EReal)
variable (hb ht h c : Fin 1024 → EReal) (z zb : EReal)

/-- Row `q` of the pre-activation. -/
def pre (q : Fin 4097) : EReal :=
  (((∑ k : Fin 1024, W01 (ix2 q k) * hb k) + z * ∑ k : Fin 1024, U21 (ix2 q k) * ht k)
    + zb * ∑ k : Fin 1024, U11 (ix2 q k) * h k) + bias q

/-- The forget gate: the logistic function of rows 0 … 1023. -/
def forget (r : Fin 1024) : EReal :=
  Ideal.logistic (pre W01 U21 U11 bias hb ht h z zb ⟨r.val, by have := r.isLt; omega⟩)

/-- The input gate: the logistic function of rows 1024 … 2047. -/
def input (r : Fin 1024) : EReal :=
  Ideal.logistic (pre W01 U21 U11 bias hb ht h z zb ⟨r.val + 1024, by have := r.isLt; omega⟩)

/-- The output gate: the logistic function of rows 2048 … 3071. -/
def output (r : Fin 1024) : EReal :=
  Ideal.logistic (pre W01 U21 U11 bias hb ht h z zb ⟨r.val + 2048, by have := r.isLt; omega⟩)

/-- The candidate: tanh of rows 3072 … 4095. -/
def cand (r : Fin 1024) : EReal :=
  Ideal.tanh (pre W01 U21 U11 bias hb ht h z zb ⟨r.val + 3072, by have := r.isLt; omega⟩)

/-- The new cell state at row `r`. -/
def cellNew (r : Fin 1024) : EReal :=
  (z * (input W01 U21 U11 bias hb ht h z zb r * cand W01 U21 U11 bias hb ht h z zb r)
      + ((one - z) * (one - zb)) * c r)
    + ((one - z) * zb) * (forget W01 U21 U11 bias hb ht h z zb r * c r
        + input W01 U21 U11 bias hb ht h z zb r * cand W01 U21 U11 bias hb ht h z zb r)

/-- The new hidden state at row `r`. -/
def hiddenNew (r : Fin 1024) : EReal :=
  ((z * output W01 U21 U11 bias hb ht h z zb r) * Ideal.tanh (cellNew W01 U21 U11 bias hb ht h c z zb r)
      + ((one - z) * (one - zb)) * h r)
    + (((one - z) * zb) * output W01 U21 U11 bias hb ht h z zb r) * Ideal.tanh (cellNew W01 U21 U11 bias hb ht h c z zb r)

/-- The boundary estimate: the last row, mapped by x ↦ (x·1 + 1)·½ and clamped to [0, 1]. -/
def boundaryHat : EReal :=
  min one (max zero ((pre W01 U21 U11 bias hb ht h z zb ⟨4096, by omega⟩ * one + one) * half))

/-- The new boundary: one where the estimate exceeds one half, zero elsewhere. -/
def boundaryNew : EReal :=
  FloatOps.sitofp (F := Ideal) .f32 ((Ideal.cmp .ogt (boundaryHat W01 U21 U11 bias hb ht h z zb) half).setWidth 32)

/-- The estimate lies in [0, 1]. -/
theorem boundaryHat_mem : zero ≤ boundaryHat W01 U21 U11 bias hb ht h z zb ∧ boundaryHat W01 U21 U11 bias hb ht h z zb ≤ one := by
  refine ⟨le_min ?_ (le_max_left _ _), min_le_left _ _⟩
  show Ideal.ofBits .f32 0x00000000#32 ≤ Ideal.ofBits .f32 0x3F800000#32
  rw [Ideal.ofBits_zero_f32, Ideal.ofBits_one_f32]
  exact zero_le_one

end Column

/-! ## The whole batch: every column by itself -/

section Arrays

variable (c hb h ht : (⟨2, ![1024, 4096]⟩ : Shape).Idx → EReal) (z zb : (⟨2, ![1, 4096]⟩ : Shape).Idx → EReal)
variable (U11 U21 W01 : (⟨2, ![4097, 1024]⟩ : Shape).Idx → EReal) (bias : (⟨1, ![4097]⟩ : Shape).Idx → EReal)

/-- The new hidden state of the whole batch: entry `(r, b)` is row `r` of column `b`'s new hidden state. -/
def hiddenArr : (⟨2, ![1024, 4096]⟩ : Shape).Idx → EReal := fun i =>
  hiddenNew W01 U21 U11 (fun q => bias (ix1 q)) (fun k => hb (ix2 k (i 1))) (fun k => ht (ix2 k (i 1)))
    (fun k => h (ix2 k (i 1))) (fun k => c (ix2 k (i 1))) (z (ix2 (0 : Fin 1) (i 1))) (zb (ix2 (0 : Fin 1) (i 1))) (i 0)

/-- The new cell state of the whole batch. -/
def cellArr : (⟨2, ![1024, 4096]⟩ : Shape).Idx → EReal := fun i =>
  cellNew W01 U21 U11 (fun q => bias (ix1 q)) (fun k => hb (ix2 k (i 1))) (fun k => ht (ix2 k (i 1)))
    (fun k => h (ix2 k (i 1))) (fun k => c (ix2 k (i 1))) (z (ix2 (0 : Fin 1) (i 1))) (zb (ix2 (0 : Fin 1) (i 1))) (i 0)

/-- The new boundary of the whole batch: one value per column. -/
def boundaryArr : (⟨2, ![1, 4096]⟩ : Shape).Idx → EReal := fun i =>
  boundaryNew W01 U21 U11 (fun q => bias (ix1 q)) (fun k => hb (ix2 k (i 1))) (fun k => ht (ix2 k (i 1)))
    (fun k => h (ix2 k (i 1))) (z (ix2 (0 : Fin 1) (i 1))) (zb (ix2 (0 : Fin 1) (i 1)))

end Arrays

/-! ## Three facts about single extended reals -/

/-- The pattern `0x3F000000` is the real one half. -/
theorem half_eq : half = (((1 : ℝ) / 2 : ℝ) : EReal) := by
  show Ideal.ofBits .f32 0x3F000000#32 = _
  simp [Ideal.ofBits, Ideal.ieee, -EReal.coe_mul]; norm_num

/-- The pattern `0x40000000` is the real two. -/
theorem two_eq : two = ((2 : ℝ) : EReal) := by
  show Ideal.ofBits .f32 0x40000000#32 = _
  simp [Ideal.ofBits, Ideal.ieee, -EReal.coe_mul]; norm_num

/-- Dividing by two is multiplying by one half, at every extended real. -/
theorem div_two (x : EReal) : Ideal.div x two = x * half := by
  rw [two_eq, half_eq]
  exact Ideal.div_coe (by norm_num) x

/-- The quotient `1 / (1 + e^(−x))` over the pattern of one is the logistic function, at every extended real. -/
theorem logistic_quotient (x : EReal) : Ideal.div one (one + Ideal.exp (-x)) = Ideal.logistic x := by
  show Ideal.div (Ideal.ofBits .f32 0x3F800000#32) (Ideal.ofBits .f32 0x3F800000#32 + Ideal.exp (-x)) = _
  rw [Ideal.ofBits_one_f32]
  rfl

/-- A one-bit word read signed after widening to 32 bits is the word read unsigned. -/
theorem toInt_setWidth_bit (s : BitVec 1) : (s.setWidth 32).toInt = (s.toNat : ℤ) := by
  revert s; decide

/-- For an estimate `a` in [0, 1] and a bit `s`, `a + (s − a)` is `s`: `a` is a real number, so the sum cancels. -/
theorem straight_through (a : EReal) (s : BitVec 1) (h0 : zero ≤ a) (h1 : a ≤ one) :
    a + (FloatOps.uitofp (F := Ideal) .f32 s - a) = FloatOps.sitofp (F := Ideal) .f32 (s.setWidth 32) := by
  have h0' : (0 : EReal) ≤ a := by
    have := h0; rwa [show zero = (0 : EReal) from Ideal.ofBits_zero_f32] at this
  have h1' : a ≤ (1 : EReal) := by
    have := h1; rwa [show one = (1 : EReal) from Ideal.ofBits_one_f32] at this
  have hbot : a ≠ ⊥ := ne_of_gt (lt_of_lt_of_le EReal.bot_lt_zero h0')
  have htop : a ≠ ⊤ := ne_of_lt (lt_of_le_of_lt h1' (by rw [show (1 : EReal) = ((1 : ℝ) : EReal) by norm_cast]; exact EReal.coe_lt_top 1))
  lift a to ℝ using ⟨htop, hbot⟩
  show (a : EReal) + (((s.toNat : ℝ) : EReal) - (a : EReal)) = (((s.setWidth 32).toInt : ℝ) : EReal)
  rw [toInt_setWidth_bit]
  norm_cast
  ring

end Cert.Cell

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.KernelBlock.lean ====
/-
  What one grid point of the kernel leaves in its three output blocks, entry by entry.

  A grid point sees the three weight matrices and the bias column whole, and 128 columns of the batch: a 1024 × 128
  block of each of the bottom, top and recurrent hidden states and of the cell state, and a 1 × 128 block of each of
  the two boundary rows. Its body forms the pre-activation block (4097 × 128) from three products into zero
  accumulators, and everything after that is pointwise on slices of it. So the value it stores at `(r, j)` of an
  output block depends on column `j` of the input blocks only, and it is the column specification's value at row `r`:
  the new hidden state, the new cell state, and (in the one-row block) the new boundary.

  The pre-activation at `(q, j)`: each product reads as the sum over the contracted coordinate; the change of float
  format before the products is the identity at the ideal values; a boundary row repeated down the rows reads its entry
  `j`; the bias column repeated along the rows reads its entry `q`.
-/
import proofs.«136361_j13778255086021_1_alg».proof.Proof.Gen.KernelIdeal.Value
import proofs.«136361_j13778255086021_1_alg».proof.Proof.CellSpec
import proofs.«136361_j13778255086021_1_alg».proof.Proof.LibDenseLayer
import proofs.«136361_j13778255086021_1_alg».proof.Proof.LibRowOps
import Idealize.ShloMosaic.Lib.ValueLayout

noncomputable section

namespace Cert.KernelIdeal.Block

open Cert.KernelIdeal Cert.KernelIdeal.Gen Idealize.ShloMosaic Idealize.ShloMosaic.ValueIdx

variable (Wa Wb Wc : Vec Ideal S4097x1024 .bf16) (bcol : Vec Ideal S4097x1 .f32)
  (hbB htB hB cB : Vec Ideal S1024x128 .f32) (zB zbB : Vec Ideal S1x128 .f32)

/-- The bias of row `q`, read off the one-column block that holds it. -/
abbrev biasOf : Fin 4097 → EReal := fun q => bcol (ix2 q (0 : Fin 1))
/-- Column `j` of a 1024-row block. -/
abbrev colOf (X : Vec Ideal S1024x128 .f32) (j : Fin 128) : Fin 1024 → EReal := fun k => X (ix2 k j)
/-- Entry `j` of a one-row block. -/
def rowAt (X : Vec Ideal S1x128 .f32) (j : Fin 128) : EReal := X (ix2 (0 : Fin 1) j)
/-- Entry `(r, j)` of a 1024-row block. -/
def entryAt (X : Vec Ideal S1024x128 .f32) (r : Fin 1024) (j : Fin 128) : EReal := X (ix2 r j)

/-- A one-row block read at any index is its entry at the index's column: the row coordinate can only be zero. -/
theorem read_row (X : Vec Ideal S1x128 .f32) (i : S1x128.Idx) : X i = rowAt X (i 1) :=
  congrArg X (funext fun a => match a with
    | ⟨0, _⟩ => Fin.ext (by have h : (i 0).val < 1 := (i 0).isLt; show (i 0).val = 0; omega)
    | ⟨1, _⟩ => rfl)

/-- A 1024-row block read at any index is its entry at the index's two coordinates. -/
theorem read_entry (X : Vec Ideal S1024x128 .f32) (i : S1024x128.Idx) : X i = entryAt X (i 0) (i 1) :=
  congrArg X (eq_ix2 i)

/-- The kernel's product of a weight matrix with a block of 128 columns, into the zero accumulator, at `(q, j)`:
    the sum over the contracted coordinate. -/
theorem matmul_entry (A : FVec Ideal S4097x1024 .bf16) (B : FVec Ideal S1024x128 .bf16) (q : Fin 4097) (j : Fin 128) :
    matmul dot_S4097x1024_S1024x128_S4097x128_1_0_0_1_n_n none A B (constant S4097x128 .f32 0x00000000#32) (ix2 q j)
      = ∑ k : Fin 1024, A (ix2 q k) * B (ix2 k j) :=
  DenseLayer.matmul_rows_apply Facts₀.dot_S4097x1024_S1024x128_S4097x128_1_0_0_1_n_n_wf none A B q j

/-- The body's pre-activation at `(q, j)` is row `q` of the column specification's, for column `j` of the blocks:
    three products read as sums, the two boundary rows repeated down the rows, the bias column repeated along them;
    the change of float format is the identity. -/
theorem pay2_apply (q : Fin 4097) (j : Fin 128) :
    k0_pay2 (F := Ideal) Wa Wb Wc bcol hbB htB hB zB zbB (ix2 q j)
      = Cell.pre Wa Wb Wc (biasOf bcol) (colOf hbB j) (colOf htB j) (colOf hB j) (zB (ix2 0 j)) (zbB (ix2 0 j)) q := by
  unfold k0_pay2 Cell.pre
  simp only [addf_apply, mulf_apply, shapeCast_self, matmul_entry, broadcastTo_1b_ab_apply, RowOps.broadcastTo_a1_ab_apply]
  rfl

/-- The same at an index given whole: its row is the index's first coordinate, its column the second. -/
theorem pay2_at (i : S4097x128.Idx) :
    k0_pay2 (F := Ideal) Wa Wb Wc bcol hbB htB hB zB zbB i
      = Cell.pre Wa Wb Wc (biasOf bcol) (colOf hbB (i 1)) (colOf htB (i 1)) (colOf hB (i 1)) (zB (ix2 0 (i 1))) (zbB (ix2 0 (i 1))) (i 0) :=
  (congrArg (k0_pay2 (F := Ideal) Wa Wb Wc bcol hbB htB hB zB zbB) (eq_ix2 i)).trans
    (pay2_apply Wa Wb Wc bcol hbB htB hB zB zbB (i 0) (i 1))

/-! ## The three output blocks at an entry -/

/-- The new hidden state's block at `(r, j)`: the column specification's, for column `j` of the input blocks. -/
theorem hidden_block (r : Fin 1024) (j : Fin 128) :
    Value.E10 (F := Ideal) zB Wa Wb Wc bcol hbB htB hB zbB cB (ix2 r j)
      = Cell.hiddenNew Wa Wb Wc (biasOf bcol) (colOf hbB j) (colOf htB j) (colOf hB j) (colOf cB j) (zB (ix2 0 j)) (zbB (ix2 0 j)) r := by
  show FloatOps.addf _ _ = _
  simp only [pay2_at, read_row zB, read_row zbB, read_entry hB, read_entry cB]
  rfl

/-- The new cell state's block at `(r, j)`. -/
theorem cell_block (r : Fin 1024) (j : Fin 128) :
    Value.E11 (F := Ideal) zB Wa Wb Wc bcol hbB htB hB zbB cB (ix2 r j)
      = Cell.cellNew Wa Wb Wc (biasOf bcol) (colOf hbB j) (colOf htB j) (colOf hB j) (colOf cB j) (zB (ix2 0 j)) (zbB (ix2 0 j)) r := by
  show FloatOps.addf _ _ = _
  simp only [pay2_at, read_row zB, read_row zbB, read_entry hB, read_entry cB]
  rfl

/-- The new boundary's one-row block at `(u, j)`. -/
theorem boundary_block (u : Fin 1) (j : Fin 128) :
    Value.E12 (F := Ideal) Wa Wb Wc bcol hbB htB hB zB zbB (ix2 u j)
      = Cell.boundaryNew Wa Wb Wc (biasOf bcol) (colOf hbB j) (colOf htB j) (colOf hB j) (zB (ix2 0 j)) (zbB (ix2 0 j)) := by
  show FloatOps.sitofp _ _ = _
  simp only [pay2_at, read_row zB, read_row zbB]
  rfl

/-! ## What the body leaves in each output buffer, over blocks given as variables -/

/-- The offset of a load or store of a whole buffer. -/
theorem zero_offset : (![0, 0] : Fin 2 → Nat) = fun _ => 0 := funext fun a => by fin_cases a <;> rfl

variable (x0 x1 x2 : Vec Ideal S4097x1024 .bf16) (x3 : Vec Ideal S4097x1 .f32)
  (x4 x5 x6 x7 : Vec Ideal S1024x128 .f32) (x8 x9 : Vec Ideal S1x128 .f32)

/-- Output buffer 10 (the new hidden state) at `(r, j)`, from the ten input blocks: every load is of a whole buffer. -/
theorem out10_apply (r : Fin 1024) (j : Fin 128) :
    out0_10 (F := Ideal) x0 x1 x2 x3 x4 x5 x6 x7 x8 x9 (ix2 r j)
      = Cell.hiddenNew x0 x1 x2 (biasOf x3) (colOf x4 j) (colOf x5 j) (colOf x6 j) (colOf x7 j) (x8 (ix2 0 j)) (x9 (ix2 0 j)) r := by
  unfold out0_10
  simp only [View.ld_unit_zero (S := S4097x1024) zero_offset, View.ld_unit_zero (S := S4097x1) zero_offset,
    View.ld_unit_zero (S := S1024x128) zero_offset, View.ld_unit_zero (S := S1x128) zero_offset]
  rw [Value.canon10_eq]
  exact hidden_block x0 x1 x2 x3 x4 x5 x6 x7 x8 x9 r j

/-- Output buffer 11 (the new cell state) at `(r, j)`. -/
theorem out11_apply (r : Fin 1024) (j : Fin 128) :
    out0_11 (F := Ideal) x0 x1 x2 x3 x4 x5 x6 x7 x8 x9 (ix2 r j)
      = Cell.cellNew x0 x1 x2 (biasOf x3) (colOf x4 j) (colOf x5 j) (colOf x6 j) (colOf x7 j) (x8 (ix2 0 j)) (x9 (ix2 0 j)) r := by
  unfold out0_11
  simp only [View.ld_unit_zero (S := S4097x1024) zero_offset, View.ld_unit_zero (S := S4097x1) zero_offset,
    View.ld_unit_zero (S := S1024x128) zero_offset, View.ld_unit_zero (S := S1x128) zero_offset]
  rw [Value.canon11_eq]
  exact cell_block x0 x1 x2 x3 x4 x5 x6 x7 x8 x9 r j

/-- Output buffer 12 (the new boundary) at `(u, j)`. -/
theorem out12_apply (u : Fin 1) (j : Fin 128) :
    out0_12 (F := Ideal) x0 x1 x2 x3 x4 x5 x6 x7 x8 x9 (ix2 u j)
      = Cell.boundaryNew x0 x1 x2 (biasOf x3) (colOf x4 j) (colOf x5 j) (colOf x6 j) (x8 (ix2 0 j)) (x9 (ix2 0 j)) := by
  unfold out0_12
  simp only [View.ld_unit_zero (S := S4097x1024) zero_offset, View.ld_unit_zero (S := S4097x1) zero_offset,
    View.ld_unit_zero (S := S1024x128) zero_offset, View.ld_unit_zero (S := S1x128) zero_offset]
  rw [Value.canon12_eq]
  exact boundary_block x0 x1 x2 x3 x4 x5 x6 x8 x9 u j

end Cert.KernelIdeal.Block

end
-- ==== Proof.KernelArrays.lean ====
/-
  From blocks to arrays: the kernel's three results as whole arrays of the batch.

  The grid has 32 points; point `t` works on columns `128·t … 128·t + 127` of the batch. Each 1024-row argument
  and each boundary row is staged in blocks of 128 columns, block `t` at point `t`; the three weight matrices and
  the bias column are staged whole, once, and stay. Before the region the weights change float format, which is the
  identity at the ideal values, and the bias vector is laid out as a column, entry `q` at `(q, 0)`.

  So column `j` of an input block at point `t` is column `128·t + j` of its argument, and what the point writes back
  at `(r, j)` — the column specification's value for that column of the blocks — is entry `(r, 128·t + j)` of the
  whole-batch specification. The 32 output blocks tile each result array: column `b` lies in the block of point
  `b / 128`. Hence each result array ends holding the whole-batch specification of the ten arguments.
-/
import proofs.«136361_j13778255086021_1_alg».proof.Proof.Gen.KernelIdeal.Value
import proofs.«136361_j13778255086021_1_alg».proof.Proof.CellSpec
import proofs.«136361_j13778255086021_1_alg».proof.Proof.KernelBlock
import proofs.«136361_j13778255086021_1_alg».proof.Proof.LibRowOps
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them -/

/-- The first weight matrix after its change of float format: unchanged at the ideal values. -/
theorem V_main_v0_eq (c : Dev nD) : (V m c main_v0 : S4097x1024.Idx → EReal) = m ((c : Thread nD τ).loc main_arg8) := by
  dsimp only [Gen.V, Gen.hostOps0]; after_results; rfl
/-- The second weight matrix likewise. -/
theorem V_main_v1_eq (c : Dev nD) : (V m c main_v1 : S4097x1024.Idx → EReal) = m ((c : Thread nD τ).loc main_arg7) := by
  dsimp only [Gen.V, Gen.hostOps0]; after_results; rfl
/-- The third weight matrix likewise. -/
theorem V_main_v2_eq (c : Dev nD) : (V m c main_v2 : S4097x1024.Idx → EReal) = m ((c : Thread nD τ).loc main_arg6) := by
  dsimp only [Gen.V, Gen.hostOps0]; after_results; rfl
/-- The bias laid out as a column: entry `(q, 0)` is the vector's entry `q`. -/
theorem V_bias (c : Dev nD) (q : Fin 4097) :
    (V m c main_v3 : S4097x1.Idx → EReal) (ix2 q (0 : Fin 1)) = m ((c : Thread nD τ).loc main_arg9) (ix1 q) := by
  dsimp only [Gen.V, Gen.hostOps0]; after_results
  show shapeCast S4097x1 (m ((c : Thread nD τ).loc main_arg9)) shapeCasts_S4097_S4097x1 (ix2 q (0 : Fin 1)) = _
  exact RowOps.shapeCast_a_a1_apply _ _ q 0

/-! ## The index maps, decided over the 32 grid points -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)
theorem idx10 : ∀ t : Fin cfg0.N, win0_10.index t (0 : Fin 2) = 0 ∧ win0_10.index t (1 : Fin 2) = t.val :=
  (by decide +kernel : ∀ t : Fin grid0.N, _)
theorem idx11 : ∀ t : Fin cfg0.N, win0_11.index t (0 : Fin 2) = 0 ∧ win0_11.index t (1 : Fin 2) = t.val :=
  (by decide +kernel : ∀ t : Fin grid0.N, _)
theorem idx12 : ∀ t : Fin cfg0.N, win0_12.index t (0 : Fin 2) = 0 ∧ win0_12.index t (1 : Fin 2) = t.val :=
  (by decide +kernel : ∀ t : Fin grid0.N, _)

/-! ## Where a block's entry sits in its array -/

/-- A window staged whole: the block is the array. -/
theorem emb0 (t : Fin cfg0.N) (y : S4097x1024.Idx) : ((cfg0.win 0).blk t).view.emb y = y := by
  obtain ⟨e0, e1⟩ := idx0 t
  funext a; apply Fin.ext
  match a with
  | ⟨0, _⟩ => show win0_0.index t (0 : Fin 2) * 4097 + 1 * (y 0).val = (y 0).val; omega
  | ⟨1, _⟩ => show win0_0.index t (1 : Fin 2) * 1024 + 1 * (y 1).val = (y 1).val; omega
theorem emb1 (t : Fin cfg0.N) (y : S4097x1024.Idx) : ((cfg0.win 1).blk t).view.emb y = y := by
  obtain ⟨e0, e1⟩ := idx1 t
  funext a; apply Fin.ext
  match a with
  | ⟨0, _⟩ => show win0_1.index t (0 : Fin 2) * 4097 + 1 * (y 0).val = (y 0).val; omega
  | ⟨1, _⟩ => show win0_1.index t (1 : Fin 2) * 1024 + 1 * (y 1).val = (y 1).val; omega
theorem emb2 (t : Fin cfg0.N) (y : S4097x1024.Idx) : ((cfg0.win 2).blk t).view.emb y = y := by
  obtain ⟨e0, e1⟩ := idx2 t
  funext a; apply Fin.ext
  match a with
  | ⟨0, _⟩ => show win0_2.index t (0 : Fin 2) * 4097 + 1 * (y 0).val = (y 0).val; omega
  | ⟨1, _⟩ => show win0_2.index t (1 : Fin 2) * 1024 + 1 * (y 1).val = (y 1).val; omega
theorem emb3 (t : Fin cfg0.N) (y : S4097x1.Idx) : ((cfg0.win 3).blk t).view.emb y = y := by
  obtain ⟨e0, e1⟩ := idx3 t
  funext a; apply Fin.ext
  match a with
  | ⟨0, _⟩ => show win0_3.index t (0 : Fin 2) * 4097 + 1 * (y 0).val = (y 0).val; omega
  | ⟨1, _⟩ => show win0_3.index t (1 : Fin 2) * 1 + 1 * (y 1).val = (y 1).val; omega

/-- A window staged 128 columns at a time: entry `(k, j)` of block `t` is entry `(k, 128·t + j)` of the array. -/
theorem emb4 (t : Fin cfg0.N) (k : Fin 1024) (j : Fin 128) (b : Fin 4096) (hb : b.val = t.val * 128 + j.val) :
    ((cfg0.win 4).blk t).view.emb (ix2 k j) = ix2 k b := by
  obtain ⟨e0, e1⟩ := idx4 t
  funext a; apply Fin.ext
  match a with
  | ⟨0, _⟩ => show win0_4.index t (0 : Fin 2) * 1024 + 1 * k.val = k.val; omega
  | ⟨1, _⟩ => show win0_4.index t (1 : Fin 2) * 128 + 1 * j.val = b.val; omega
theorem emb5 (t : Fin cfg0.N) (k : Fin 1024) (j : Fin 128) (b : Fin 4096) (hb : b.val = t.val * 128 + j.val) :
    ((cfg0.win 5).blk t).view.emb (ix2 k j) = ix2 k b := by
  obtain ⟨e0, e1⟩ := idx5 t
  funext a; apply Fin.ext
  match a with
  | ⟨0, _⟩ => show win0_5.index t (0 : Fin 2) * 1024 + 1 * k.val = k.val; omega
  | ⟨1, _⟩ => show win0_5.index t (1 : Fin 2) * 128 + 1 * j.val = b.val; omega
theorem emb6 (t : Fin cfg0.N) (k : Fin 1024) (j : Fin 128) (b : Fin 4096) (hb : b.val = t.val * 128 + j.val) :
    ((cfg0.win 6).blk t).view.emb (ix2 k j) = ix2 k b := by
  obtain ⟨e0, e1⟩ := idx6 t
  funext a; apply Fin.ext
  match a with
  | ⟨0, _⟩ => show win0_6.index t (0 : Fin 2) * 1024 + 1 * k.val = k.val; omega
  | ⟨1, _⟩ => show win0_6.index t (1 : Fin 2) * 128 + 1 * j.val = b.val; omega
theorem emb7 (t : Fin cfg0.N) (k : Fin 1024) (j : Fin 128) (b : Fin 4096) (hb : b.val = t.val * 128 + j.val) :
    ((cfg0.win 7).blk t).view.emb (ix2 k j) = ix2 k b := by
  obtain ⟨e0, e1⟩ := idx7 t
  funext a; apply Fin.ext
  match a with
  | ⟨0, _⟩ => show win0_7.index t (0 : Fin 2) * 1024 + 1 * k.val = k.val; omega
  | ⟨1, _⟩ => show win0_7.index t (1 : Fin 2) * 128 + 1 * j.val = b.val; omega
theorem emb10 (t : Fin cfg0.N) (k : Fin 1024) (j : Fin 128) (b : Fin 4096) (hb : b.val = t.val * 128 + j.val) :
    ((cfg0.win 10).blk t).view.emb (ix2 k j) = ix2 k b := by
  obtain ⟨e0, e1⟩ := idx10 t
  funext a; apply Fin.ext
  match a with
  | ⟨0, _⟩ => show win0_10.index t (0 : Fin 2) * 1024 + 1 * k.val = k.val; omega
  | ⟨1, _⟩ => show win0_10.index t (1 : Fin 2) * 128 + 1 * j.val = b.val; omega
theorem emb11 (t : Fin cfg0.N) (k : Fin 1024) (j : Fin 128) (b : Fin 4096) (hb : b.val = t.val * 128 + j.val) :
    ((cfg0.win 11).blk t).view.emb (ix2 k j) = ix2 k b := by
  obtain ⟨e0, e1⟩ := idx11 t
  funext a; apply Fin.ext
  match a with
  | ⟨0, _⟩ => show win0_11.index t (0 : Fin 2) * 1024 + 1 * k.val = k.val; omega
  | ⟨1, _⟩ => show win0_11.index t (1 : Fin 2) * 128 + 1 * j.val = b.val; omega
theorem emb8 (t : Fin cfg0.N) (k : Fin 1) (j : Fin 128) (b : Fin 4096) (hb : b.val = t.val * 128 + j.val) :
    ((cfg0.win 8).blk t).view.emb (ix2 k j) = ix2 k b := by
  obtain ⟨e0, e1⟩ := idx8 t
  funext a; apply Fin.ext
  match a with
  | ⟨0, _⟩ => show win0_8.index t (0 : Fin 2) * 1 + 1 * k.val = k.val; omega
  | ⟨1, _⟩ => show win0_8.index t (1 : Fin 2) * 128 + 1 * j.val = b.val; omega
theorem emb9 (t : Fin cfg0.N) (k : Fin 1) (j : Fin 128) (b : Fin 4096) (hb : b.val = t.val * 128 + j.val) :
    ((cfg0.win 9).blk t).view.emb (ix2 k j) = ix2 k b := by
  obtain ⟨e0, e1⟩ := idx9 t
  funext a; apply Fin.ext
  match a with
  | ⟨0, _⟩ => show win0_9.index t (0 : Fin 2) * 1 + 1 * k.val = k.val; omega
  | ⟨1, _⟩ => show win0_9.index t (1 : Fin 2) * 128 + 1 * j.val = b.val; omega
theorem emb12 (t : Fin cfg0.N) (k : Fin 1) (j : Fin 128) (b : Fin 4096) (hb : b.val = t.val * 128 + j.val) :
    ((cfg0.win 12).blk t).view.emb (ix2 k j) = ix2 k b := by
  obtain ⟨e0, e1⟩ := idx12 t
  funext a; apply Fin.ext
  match a with
  | ⟨0, _⟩ => show win0_12.index t (0 : Fin 2) * 1 + 1 * k.val = k.val; omega
  | ⟨1, _⟩ => show win0_12.index t (1 : Fin 2) * 128 + 1 * j.val = b.val; omega

/-! ## The input blocks as parts of the arguments -/

/-- The first weight matrix's block is the argument. -/
theorem blk_w01 (c : Dev nD) (t : Fin cfg0.N) : (iblk m c 0 t : S4097x1024.Idx → EReal) = m ((c : Thread nD τ).loc main_arg8) := by
  funext y
  show V m c main_v0 (((cfg0.win 0).blk t).view.emb y) = _
  exact (congrArg (V m c main_v0 : S4097x1024.Idx → EReal) (emb0 t y)).trans (congrFun (V_main_v0_eq m c) y)
/-- The second weight matrix's block is the argument. -/
theorem blk_u21 (c : Dev nD) (t : Fin cfg0.N) : (iblk m c 1 t : S4097x1024.Idx → EReal) = m ((c : Thread nD τ).loc main_arg7) := by
  funext y
  show V m c main_v1 (((cfg0.win 1).blk t).view.emb y) = _
  exact (congrArg (V m c main_v1 : S4097x1024.Idx → EReal) (emb1 t y)).trans (congrFun (V_main_v1_eq m c) y)
/-- The third weight matrix's block is the argument. -/
theorem blk_u11 (c : Dev nD) (t : Fin cfg0.N) : (iblk m c 2 t : S4097x1024.Idx → EReal) = m ((c : Thread nD τ).loc main_arg6) := by
  funext y
  show V m c main_v2 (((cfg0.win 2).blk t).view.emb y) = _
  exact (congrArg (V m c main_v2 : S4097x1024.Idx → EReal) (emb2 t y)).trans (congrFun (V_main_v2_eq m c) y)

/-- The bias column's block, read as a function of the row, is the bias vector. -/
theorem blk_bias (c : Dev nD) (t : Fin cfg0.N) :
    Block.biasOf (iblk m c 3 t) = fun q => m ((c : Thread nD τ).loc main_arg9) (ix1 q) := by
  funext q
  show V m c main_v3 (((cfg0.win 3).blk t).view.emb (ix2 q (0 : Fin 1))) = _
  exact (congrArg (V m c main_v3 : S4097x1.Idx → EReal) (emb3 t (ix2 q (0 : Fin 1)))).trans (V_bias m c q)

/-- Column `j` of the bottom hidden state's block at point `t` is column `128·t + j` of the argument. -/
theorem col_hb (c : Dev nD) (t : Fin cfg0.N) (j : Fin 128) (b : Fin 4096) (hb : b.val = t.val * 128 + j.val) :
    Block.colOf (iblk m c 4 t) j = fun k => m ((c : Thread nD τ).loc main_arg1) (ix2 k b) := by
  funext k
  show V m c main_arg1 (((cfg0.win 4).blk t).view.emb (ix2 k j)) = _
  exact (congrArg (V m c main_arg1) (emb4 t k j b hb)).trans (congrFun (V_main_arg1 m c) _)
/-- The same for the top hidden state. -/
theorem col_ht (c : Dev nD) (t : Fin cfg0.N) (j : Fin 128) (b : Fin 4096) (hb : b.val = t.val * 128 + j.val) :
    Block.colOf (iblk m c 5 t) j = fun k => m ((c : Thread nD τ).loc main_arg3) (ix2 k b) := by
  funext k
  show V m c main_arg3 (((cfg0.win 5).blk t).view.emb (ix2 k j)) = _
  exact (congrArg (V m c main_arg3) (emb5 t k j b hb)).trans (congrFun (V_main_arg3 m c) _)
/-- The same for the recurrent hidden state. -/
theorem col_h (c : Dev nD) (t : Fin cfg0.N) (j : Fin 128) (b : Fin 4096) (hb : b.val = t.val * 128 + j.val) :
    Block.colOf (iblk m c 6 t) j = fun k => m ((c : Thread nD τ).loc main_arg2) (ix2 k b) := by
  funext k
  show V m c main_arg2 (((cfg0.win 6).blk t).view.emb (ix2 k j)) = _
  exact (congrArg (V m c main_arg2) (emb6 t k j b hb)).trans (congrFun (V_main_arg2 m c) _)
/-- The same for the cell state. -/
theorem col_c (c : Dev nD) (t : Fin cfg0.N) (j : Fin 128) (b : Fin 4096) (hb : b.val = t.val * 128 + j.val) :
    Block.colOf (iblk m c 7 t) j = fun k => m ((c : Thread nD τ).loc main_arg0) (ix2 k b) := by
  funext k
  show V m c main_arg0 (((cfg0.win 7).blk t).view.emb (ix2 k j)) = _
  exact (congrArg (V m c main_arg0) (emb7 t k j b hb)).trans (congrFun (V_main_arg0 m c) _)
/-- Entry `j` of the first boundary row's block at point `t` is entry `128·t + j` of the argument. -/
theorem row_z (c : Dev nD) (t : Fin cfg0.N) (j : Fin 128) (b : Fin 4096) (hb : b.val = t.val * 128 + j.val) :
    iblk m c 8 t (ix2 (0 : Fin 1) j) = m ((c : Thread nD τ).loc main_arg4) (ix2 (0 : Fin 1) b) := by
  show V m c main_arg4 (((cfg0.win 8).blk t).view.emb (ix2 (0 : Fin 1) j)) = _
  exact (congrArg (V m c main_arg4) (emb8 t 0 j b hb)).trans (congrFun (V_main_arg4 m c) _)
/-- The same for the second boundary row. -/
theorem row_zb (c : Dev nD) (t : Fin cfg0.N) (j : Fin 128) (b : Fin 4096) (hb : b.val = t.val * 128 + j.val) :
    iblk m c 9 t (ix2 (0 : Fin 1) j) = m ((c : Thread nD τ).loc main_arg5) (ix2 (0 : Fin 1) b) := by
  show V m c main_arg5 (((cfg0.win 9).blk t).view.emb (ix2 (0 : Fin 1) j)) = _
  exact (congrArg (V m c main_arg5) (emb9 t 0 j b hb)).trans (congrFun (V_main_arg5 m c) _)

/-! ## What each point writes back -/

/-- The whole-batch specification of this memory's ten arguments. -/
abbrev hiddenOf (c : Dev nD) : S1024x4096.Idx → EReal := Cell.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev cellOf' (c : Dev nD) : S1024x4096.Idx → EReal := Cell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev boundaryOf (c : Dev nD) : S1x4096.Idx → EReal := Cell.boundaryArr (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The global column of column `j` of point `t`'s blocks. -/
def col (t : Fin cfg0.N) (j : Fin 128) : Fin 4096 :=
  ⟨t.val * 128 + j.val, by have ht : t.val < 32 := lt_of_lt_of_eq t.isLt N_0; have := j.isLt; omega⟩

/-- Point `t` writes back block `t` of the whole-batch new hidden state. -/
theorem flushed_hidden (c : Dev nD) (t : Fin cfg0.N) :
    (dats m 0 c).flushed 10 t = ((cfg0.win 10).blk t).view.read (Elt Ideal) (hiddenOf m c) := by
  rw [Value.flushed10]
  funext y
  obtain ⟨r, j, rfl⟩ : ∃ (r : Fin 1024) (j : Fin 128), y = ix2 r j := ⟨y 0, y 1, eq_ix2 y⟩
  refine (Block.out10_apply (iblk m c 0 t) (iblk m c 1 t) (iblk m c 2 t) (iblk m c 3 t) (iblk m c 4 t) (iblk m c 5 t) (iblk m c 6 t) (iblk m c 7 t) (iblk m c 8 t) (iblk m c 9 t) r j).trans ?_
  show _ = hiddenOf m c (((cfg0.win 10).blk t).view.emb (ix2 r j))
  rw [emb10 t r j (col t j) rfl, blk_w01 m c t, blk_u21 m c t, blk_u11 m c t, blk_bias m c t,
    col_hb m c t j (col t j) rfl, col_ht m c t j (col t j) rfl, col_h m c t j (col t j) rfl, col_c m c t j (col t j) rfl,
    row_z m c t j (col t j) rfl, row_zb m c t j (col t j) rfl]
  rfl

/-- Point `t` writes back block `t` of the whole-batch new cell state. -/
theorem flushed_cell (c : Dev nD) (t : Fin cfg0.N) :
    (dats m 0 c).flushed 11 t = ((cfg0.win 11).blk t).view.read (Elt Ideal) (cellOf' m c) := by
  rw [Value.flushed11]
  funext y
  obtain ⟨r, j, rfl⟩ : ∃ (r : Fin 1024) (j : Fin 128), y = ix2 r j := ⟨y 0, y 1, eq_ix2 y⟩
  refine (Block.out11_apply (iblk m c 0 t) (iblk m c 1 t) (iblk m c 2 t) (iblk m c 3 t) (iblk m c 4 t) (iblk m c 5 t) (iblk m c 6 t) (iblk m c 7 t) (iblk m c 8 t) (iblk m c 9 t) r j).trans ?_
  show _ = cellOf' m c (((cfg0.win 11).blk t).view.emb (ix2 r j))
  rw [emb11 t r j (col t j) rfl, blk_w01 m c t, blk_u21 m c t, blk_u11 m c t, blk_bias m c t,
    col_hb m c t j (col t j) rfl, col_ht m c t j (col t j) rfl, col_h m c t j (col t j) rfl, col_c m c t j (col t j) rfl,
    row_z m c t j (col t j) rfl, row_zb m c t j (col t j) rfl]
  rfl

/-- Point `t` writes back block `t` of the whole-batch new boundary. -/
theorem flushed_boundary (c : Dev nD) (t : Fin cfg0.N) :
    (dats m 0 c).flushed 12 t = ((cfg0.win 12).blk t).view.read (Elt Ideal) (boundaryOf m c) := by
  rw [Value.flushed12]
  funext y
  obtain ⟨u, j, rfl⟩ : ∃ (u : Fin 1) (j : Fin 128), y = ix2 u j := ⟨y 0, y 1, eq_ix2 y⟩
  refine (Block.out12_apply (iblk m c 0 t) (iblk m c 1 t) (iblk m c 2 t) (iblk m c 3 t) (iblk m c 4 t) (iblk m c 5 t) (iblk m c 6 t) (iblk m c 7 t) (iblk m c 8 t) (iblk m c 9 t) u j).trans ?_
  show _ = boundaryOf m c (((cfg0.win 12).blk t).view.emb (ix2 u j))
  rw [emb12 t u j (col t j) rfl, blk_w01 m c t, blk_u21 m c t, blk_u11 m c t, blk_bias m c t,
    col_hb m c t j (col t j) rfl, col_ht m c t j (col t j) rfl, col_h m c t j (col t j) rfl,
    row_z m c t j (col t j) rfl, row_zb m c t j (col t j) rfl]
  rfl

/-! ## The blocks tile the result arrays -/

/-- An index of the array is in point `t`'s block iff each coordinate is in the block's range on its axis. -/
theorem mem_blk10 (t : Fin cfg0.N) (i : S1024x4096.Idx) :
    i ∈ ((cfg0.win 10).blk t).view.set ↔ ∀ a : Fin 2, win0_10.index t a * S1024x128.size a ≤ (i a).val ∧ (i a).val < win0_10.index t a * S1024x128.size a + S1024x128.size a := by
  show i ∈ ((View.whole main_v4_0).slice (win0_10.rect t)).set ↔ _
  rw [View.set_slice_whole, Rect.mem_set_unit]
  exact Iff.rfl
theorem mem_blk11 (t : Fin cfg0.N) (i : S1024x4096.Idx) :
    i ∈ ((cfg0.win 11).blk t).view.set ↔ ∀ a : Fin 2, win0_11.index t a * S1024x128.size a ≤ (i a).val ∧ (i a).val < win0_11.index t a * S1024x128.size a + S1024x128.size a := by
  show i ∈ ((View.whole main_v4_1).slice (win0_11.rect t)).set ↔ _
  rw [View.set_slice_whole, Rect.mem_set_unit]
  exact Iff.rfl
theorem mem_blk12 (t : Fin cfg0.N) (i : S1x4096.Idx) :
    i ∈ ((cfg0.win 12).blk t).view.set ↔ ∀ a : Fin 2, win0_12.index t a * S1x128.size a ≤ (i a).val ∧ (i a).val < win0_12.index t a * S1x128.size a + S1x128.size a := by
  show i ∈ ((View.whole main_v4_2).slice (win0_12.rect t)).set ↔ _
  rw [View.set_slice_whole, Rect.mem_set_unit]
  exact Iff.rfl

/-- Every index of the array lies in the block of the point that owns its column: point `b / 128`. -/
theorem cover10 (i : S1024x4096.Idx) : ∃ t : Fin cfg0.N, (cfg0.win 10).flush t = true ∧ i ∈ ((cfg0.win 10).blk t).view.set := by
  have hi0 : (i 0).val < 1024 := (i 0).isLt
  have hi1 : (i 1).val < 4096 := (i 1).isLt
  have hN : grid0.N = 32 := N_0
  have hlt : (i 1).val / 128 < cfg0.N := by show (i 1).val / 128 < grid0.N; omega
  obtain ⟨e0, e1⟩ := idx10 ⟨(i 1).val / 128, hlt⟩
  have e1' : win0_10.index ⟨(i 1).val / 128, hlt⟩ (1 : Fin 2) = (i 1).val / 128 := e1
  refine ⟨⟨(i 1).val / 128, hlt⟩, flush0_10 _, ?_⟩
  rw [mem_blk10]
  intro a
  match a with
  | ⟨0, _⟩ =>
    show win0_10.index ⟨(i 1).val / 128, hlt⟩ (0 : Fin 2) * 1024 ≤ (i 0).val ∧ (i 0).val < win0_10.index ⟨(i 1).val / 128, hlt⟩ (0 : Fin 2) * 1024 + 1024
    omega
  | ⟨1, _⟩ =>
    show win0_10.index ⟨(i 1).val / 128, hlt⟩ (1 : Fin 2) * 128 ≤ (i 1).val ∧ (i 1).val < win0_10.index ⟨(i 1).val / 128, hlt⟩ (1 : Fin 2) * 128 + 128
    omega
/-- Every index of the array lies in the block of the point that owns its column: point `b / 128`. -/
theorem cover11 (i : S1024x4096.Idx) : ∃ t : Fin cfg0.N, (cfg0.win 11).flush t = true ∧ i ∈ ((cfg0.win 11).blk t).view.set := by
  have hi0 : (i 0).val < 1024 := (i 0).isLt
  have hi1 : (i 1).val < 4096 := (i 1).isLt
  have hN : grid0.N = 32 := N_0
  have hlt : (i 1).val / 128 < cfg0.N := by show (i 1).val / 128 < grid0.N; omega
  obtain ⟨e0, e1⟩ := idx11 ⟨(i 1).val / 128, hlt⟩
  have e1' : win0_11.index ⟨(i 1).val / 128, hlt⟩ (1 : Fin 2) = (i 1).val / 128 := e1
  refine ⟨⟨(i 1).val / 128, hlt⟩, flush0_11 _, ?_⟩
  rw [mem_blk11]
  intro a
  match a with
  | ⟨0, _⟩ =>
    show win0_11.index ⟨(i 1).val / 128, hlt⟩ (0 : Fin 2) * 1024 ≤ (i 0).val ∧ (i 0).val < win0_11.index ⟨(i 1).val / 128, hlt⟩ (0 : Fin 2) * 1024 + 1024
    omega
  | ⟨1, _⟩ =>
    show win0_11.index ⟨(i 1).val / 128, hlt⟩ (1 : Fin 2) * 128 ≤ (i 1).val ∧ (i 1).val < win0_11.index ⟨(i 1).val / 128, hlt⟩ (1 : Fin 2) * 128 + 128
    omega
/-- Every index of the array lies in the block of the point that owns its column: point `b / 128`. -/
theorem cover12 (i : S1x4096.Idx) : ∃ t : Fin cfg0.N, (cfg0.win 12).flush t = true ∧ i ∈ ((cfg0.win 12).blk t).view.set := by
  have hi0 : (i 0).val < 1 := (i 0).isLt
  have hi1 : (i 1).val < 4096 := (i 1).isLt
  have hN : grid0.N = 32 := N_0
  have hlt : (i 1).val / 128 < cfg0.N := by show (i 1).val / 128 < grid0.N; omega
  obtain ⟨e0, e1⟩ := idx12 ⟨(i 1).val / 128, hlt⟩
  have e1' : win0_12.index ⟨(i 1).val / 128, hlt⟩ (1 : Fin 2) = (i 1).val / 128 := e1
  refine ⟨⟨(i 1).val / 128, hlt⟩, flush0_12 _, ?_⟩
  rw [mem_blk12]
  intro a
  match a with
  | ⟨0, _⟩ =>
    show win0_12.index ⟨(i 1).val / 128, hlt⟩ (0 : Fin 2) * 1 ≤ (i 0).val ∧ (i 0).val < win0_12.index ⟨(i 1).val / 128, hlt⟩ (0 : Fin 2) * 1 + 1
    omega
  | ⟨1, _⟩ =>
    show win0_12.index ⟨(i 1).val / 128, hlt⟩ (1 : Fin 2) * 128 ≤ (i 1).val ∧ (i 1).val < win0_12.index ⟨(i 1).val / 128, hlt⟩ (1 : Fin 2) * 128 + 128
    omega

/-! ## The result arrays, and the run -/

theorem final_hidden (c : Dev nD) : (dats m 0 c).arrAt 10 cfg0.N = hiddenOf m c :=
  (dats m 0 c).arrAt_eq_of_cover 10 (hiddenOf m c) (fun t _ => flushed_hidden m c t) cover10

theorem final_cell (c : Dev nD) : (dats m 0 c).arrAt 11 cfg0.N = cellOf' m c :=
  (dats m 0 c).arrAt_eq_of_cover 11 (cellOf' m c) (fun t _ => flushed_cell m c t) cover11

theorem final_boundary (c : Dev nD) : (dats m 0 c).arrAt 12 cfg0.N = boundaryOf m c :=
  (dats m 0 c).arrAt_eq_of_cover 12 (boundaryOf m c) (fun t _ => flushed_boundary m c t) cover12

/-- Every weakly fair execution of the kernel's program ends with the three results at the whole-batch
    specification of the arguments, and the arguments unchanged. -/
theorem run : θ_run defs (onTc (τ := τ) (main (F := Ideal))) ⟨m, fun _ => 0, ρ⟩ fun r => ∀ c : Dev nD,
      r.2.mem ((c : Thread nD τ).loc main_v4_0) = hiddenOf m c
      ∧ r.2.mem ((c : Thread nD τ).loc main_v4_1) = cellOf' m c
      ∧ r.2.mem ((c : Thread nD τ).loc main_v4_2) = boundaryOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_hidden m c), (h c).2.1.trans (final_cell m c),
      (h c).2.2.1.trans (final_boundary m c), (h c).2.2.2⟩)
    (Value.run_blocks m ρ)

end Cert.KernelIdeal.Arrays

end
-- ==== Proof.ReferenceStages.lean ====
/-
  The reference, stage by stage, as the column specification.

  The reference computes the pre-activation of the whole batch at once, a 4097 × 4096 array: three products of a
  weight matrix with a 1024 × 4096 hidden state, the second and third scaled by a boundary row repeated down the
  rows, and the bias repeated along the rows. At `(q, b)` that is row `q` of the column specification's pre-activation
  for column `b` of the arguments. Its four row bands, passed through `1 / (1 + e^(−x))` (the logistic function,
  at every extended real) and through tanh, are the gates and the candidate; the cell and hidden states follow by the
  same pointwise formulas as the specification's; the last row, divided by two where the specification multiplies by
  one half, is clamped to the boundary estimate; and the boundary the reference returns, the estimate plus the
  difference of its threshold bit and itself, is the threshold bit, because the estimate lies in [0, 1].

  An argument array read at any index is its entry at the index's coordinates; the entries are named so that a
  rewrite by these readings ends.
-/
import proofs.«136361_j13778255086021_1_alg».proof.Proof.Gen.ReferenceIdeal.Read
import proofs.«136361_j13778255086021_1_alg».proof.Proof.CellSpec

noncomputable section

namespace Cert.ReferenceIdeal.Stages

open Cert.ReferenceIdeal Cert.ReferenceIdeal.Gen Cert.ReferenceIdeal.Read Idealize.ShloMosaic Idealize.ShloMosaic.ValueIdx

variable (x0 x1 x2 x3 : (⟨S1024x4096, .f32⟩ : BufTy).Contents (Elt Ideal)) (x4 x5 : (⟨S1x4096, .f32⟩ : BufTy).Contents (Elt Ideal))
  (x6 x7 x8 : (⟨S4097x1024, .f32⟩ : BufTy).Contents (Elt Ideal)) (x9 : (⟨S4097, .f32⟩ : BufTy).Contents (Elt Ideal))

/-! ## Reading the argument arrays -/

/-- The bias as a function of the row. -/
abbrev biasR : Fin 4097 → EReal := fun q => x9 (ix1 q)
/-- Column `b` of a 1024 × 4096 argument. -/
abbrev colR (X : (⟨S1024x4096, .f32⟩ : BufTy).Contents (Elt Ideal)) (b : Fin 4096) : Fin 1024 → EReal := fun k => X (ix2 k b)

/-- Entry `b` of a boundary row. -/
def rowAt (X : (⟨S1x4096, .f32⟩ : BufTy).Contents (Elt Ideal)) (b : Fin 4096) : EReal := X (ix2 (0 : Fin 1) b)
/-- Entry `(r, b)` of a 1024 × 4096 argument. -/
def matAt (X : (⟨S1024x4096, .f32⟩ : BufTy).Contents (Elt Ideal)) (r : Fin 1024) (b : Fin 4096) : EReal := X (ix2 r b)
/-- Entry `(q, k)` of a weight matrix. -/
def wAt (X : (⟨S4097x1024, .f32⟩ : BufTy).Contents (Elt Ideal)) (q : Fin 4097) (k : Fin 1024) : EReal := X (ix2 q k)
/-- Entry `q` of the bias. -/
def bAt (X : (⟨S4097, .f32⟩ : BufTy).Contents (Elt Ideal)) (q : Fin 4097) : EReal := X (ix1 q)

/-- A boundary row read at any index is its entry at the index's column: the row coordinate can only be zero. -/
theorem read_row4 (X : (⟨S1x4096, .f32⟩ : BufTy).Contents (Elt Ideal)) (i : S1x4096.Idx) : X i = rowAt X (i 1) :=
  congrArg X (funext fun a => match a with
    | ⟨0, _⟩ => Fin.ext (by have h : (i 0).val < 1 := (i 0).isLt; show (i 0).val = 0; omega)
    | ⟨1, _⟩ => rfl)
theorem read_mat (X : (⟨S1024x4096, .f32⟩ : BufTy).Contents (Elt Ideal)) (i : S1024x4096.Idx) : X i = matAt X (i 0) (i 1) :=
  congrArg X (eq_ix2 i)
theorem read_w (X : (⟨S4097x1024, .f32⟩ : BufTy).Contents (Elt Ideal)) (i : S4097x1024.Idx) : X i = wAt X (i 0) (i 1) :=
  congrArg X (eq_ix2 i)
theorem read_b (X : (⟨S4097, .f32⟩ : BufTy).Contents (Elt Ideal)) (i : S4097.Idx) : X i = bAt X (i 0) :=
  congrArg X (eq_ix1 i)

/-! ## The pre-activation -/

/-- The reference's pre-activation at `(q, b)` is row `q` of the column specification's for column `b`. -/
theorem pre_stage (i : S4097x4096.Idx) :
    val_main_v11 (F := Ideal) x1 x2 x3 x4 x5 x6 x7 x8 x9 i = Cell.pre x8 x7 x6 (biasR x9) (colR x1 (i 1)) (colR x3 (i 1)) (colR x2 (i 1)) (x4 (ix2 (0 : Fin 1) (i 1))) (x5 (ix2 (0 : Fin 1) (i 1))) (i 0) := by
  simp only [val_main_v11_apply, val_main_v8_apply, val_main_v4_apply, val_main_v0_apply, val_main_v3_apply, val_main_v2_apply, val_main_v1_apply, val_main_v7_apply, val_main_v6_apply, val_main_v5_apply, val_main_v10_apply, val_main_v9_apply, read_row4 x4, read_row4 x5, read_mat x1, read_mat x2, read_mat x3, read_w x6, read_w x7, read_w x8, read_b x9]
  unfold Cell.pre
  simp only [read_row4 x4, read_row4 x5, read_mat x1, read_mat x2, read_mat x3, read_w x6, read_w x7, read_w x8, read_b x9]
  rfl

/-! ## The gates and the candidate -/

/-- A row band's slice reads row `offset + r`, which is row `r + offset`. -/
theorem row_input (i : S1024x4096.Idx) :
    (idx_main_v19 i) 0 = (⟨(i 0).val + 1024, by have h : (i 0).val < 1024 := (i 0).isLt; omega⟩ : Fin 4097) :=
  Fin.ext (by show 1024 + (i 0).val = (i 0).val + 1024; omega)
theorem row_output (i : S1024x4096.Idx) :
    (idx_main_v26 i) 0 = (⟨(i 0).val + 2048, by have h : (i 0).val < 1024 := (i 0).isLt; omega⟩ : Fin 4097) :=
  Fin.ext (by show 2048 + (i 0).val = (i 0).val + 2048; omega)
theorem row_cand (i : S1024x4096.Idx) :
    (idx_main_v33 i) 0 = (⟨(i 0).val + 3072, by have h : (i 0).val < 1024 := (i 0).isLt; omega⟩ : Fin 4097) :=
  Fin.ext (by show 3072 + (i 0).val = (i 0).val + 3072; omega)

/-- Rows 0 … 1023 through `1 / (1 + e^(−x))`: the forget gate. -/
theorem forget_stage (i : S1024x4096.Idx) :
    val_main_v18 (F := Ideal) x1 x2 x3 x4 x5 x6 x7 x8 x9 i = Cell.forget x8 x7 x6 (biasR x9) (colR x1 (i 1)) (colR x3 (i 1)) (colR x2 (i 1)) (x4 (ix2 (0 : Fin 1) (i 1))) (x5 (ix2 (0 : Fin 1) (i 1))) (i 0) := by
  simp only [val_main_v18_apply, val_main_v17_apply, val_main_cst_0_apply, val_main_v16_apply, val_main_v15_apply, val_main_cst_apply, val_main_v14_apply, val_main_v13_apply, val_main_v12_apply, pre_stage]
  exact Cell.logistic_quotient _

/-- Rows 1024 … 2047: the input gate. -/
theorem input_stage (i : S1024x4096.Idx) :
    val_main_v25 (F := Ideal) x1 x2 x3 x4 x5 x6 x7 x8 x9 i = Cell.input x8 x7 x6 (biasR x9) (colR x1 (i 1)) (colR x3 (i 1)) (colR x2 (i 1)) (x4 (ix2 (0 : Fin 1) (i 1))) (x5 (ix2 (0 : Fin 1) (i 1))) (i 0) := by
  simp only [val_main_v25_apply, val_main_v24_apply, val_main_cst_2_apply, val_main_v23_apply, val_main_v22_apply, val_main_cst_1_apply, val_main_v21_apply, val_main_v20_apply, val_main_v19_apply, pre_stage]
  rw [row_input]
  exact Cell.logistic_quotient _

/-- Rows 2048 … 3071: the output gate. -/
theorem output_stage (i : S1024x4096.Idx) :
    val_main_v32 (F := Ideal) x1 x2 x3 x4 x5 x6 x7 x8 x9 i = Cell.output x8 x7 x6 (biasR x9) (colR x1 (i 1)) (colR x3 (i 1)) (colR x2 (i 1)) (x4 (ix2 (0 : Fin 1) (i 1))) (x5 (ix2 (0 : Fin 1) (i 1))) (i 0) := by
  simp only [val_main_v32_apply, val_main_v31_apply, val_main_cst_4_apply, val_main_v30_apply, val_main_v29_apply, val_main_cst_3_apply, val_main_v28_apply, val_main_v27_apply, val_main_v26_apply, pre_stage]
  rw [row_output]
  exact Cell.logistic_quotient _

/-- Rows 3072 … 4095 through tanh: the candidate. -/
theorem cand_stage (i : S1024x4096.Idx) :
    val_main_v34 (F := Ideal) x1 x2 x3 x4 x5 x6 x7 x8 x9 i = Cell.cand x8 x7 x6 (biasR x9) (colR x1 (i 1)) (colR x3 (i 1)) (colR x2 (i 1)) (x4 (ix2 (0 : Fin 1) (i 1))) (x5 (ix2 (0 : Fin 1) (i 1))) (i 0) := by
  simp only [val_main_v34_apply, val_main_v33_apply, pre_stage]
  rw [row_cand]
  rfl

/-! ## The cell state and the hidden state -/

/-- The reference's new cell state at `(r, b)`. -/
theorem cell_stage (i : S1024x4096.Idx) :
    val_main_v62 (F := Ideal) x0 x1 x2 x3 x4 x5 x6 x7 x8 x9 i = Cell.cellNew x8 x7 x6 (biasR x9) (colR x1 (i 1)) (colR x3 (i 1)) (colR x2 (i 1)) (colR x0 (i 1)) (x4 (ix2 (0 : Fin 1) (i 1))) (x5 (ix2 (0 : Fin 1) (i 1))) (i 0) := by
  simp only [val_main_v62_apply, val_main_v53_apply, val_main_v45_apply, val_main_v44_apply, val_main_v43_apply, val_main_v52_apply, val_main_v51_apply, val_main_v50_apply, val_main_v47_apply, val_main_v46_apply, val_main_cst_10_apply, val_main_v49_apply, val_main_v48_apply, val_main_cst_11_apply, val_main_v61_apply, val_main_v60_apply, val_main_v56_apply, val_main_v55_apply, val_main_v54_apply, val_main_cst_12_apply, val_main_v59_apply, val_main_v57_apply, val_main_v58_apply,
    forget_stage, input_stage, cand_stage, read_row4 x4, read_row4 x5, read_mat x0]
  unfold Cell.cellNew
  simp only [read_row4 x4, read_row4 x5, read_mat x0]
  rfl

/-- The reference's new hidden state at `(r, b)`. -/
theorem hidden_stage (i : S1024x4096.Idx) :
    val_main_v81 (F := Ideal) x0 x1 x2 x3 x4 x5 x6 x7 x8 x9 i = Cell.hiddenNew x8 x7 x6 (biasR x9) (colR x1 (i 1)) (colR x3 (i 1)) (colR x2 (i 1)) (colR x0 (i 1)) (x4 (ix2 (0 : Fin 1) (i 1))) (x5 (ix2 (0 : Fin 1) (i 1))) (i 0) := by
  simp only [val_main_v81_apply, val_main_v74_apply, val_main_v66_apply, val_main_v65_apply, val_main_v64_apply, val_main_v63_apply, val_main_v73_apply, val_main_v72_apply, val_main_v71_apply, val_main_v68_apply, val_main_v67_apply, val_main_cst_13_apply, val_main_v70_apply, val_main_v69_apply, val_main_cst_14_apply, val_main_v80_apply, val_main_v79_apply, val_main_v78_apply, val_main_v77_apply, val_main_v76_apply, val_main_v75_apply, val_main_cst_15_apply,
    output_stage, cell_stage, read_row4 x4, read_row4 x5, read_mat x2]
  unfold Cell.hiddenNew
  simp only [read_row4 x4, read_row4 x5, read_mat x2]
  rfl

/-! ## The boundary -/

/-- The last row of the pre-activation, whatever the one-row index's row coordinate. -/
theorem last_row (i : S1x4096.Idx) : (idx_main_v35 i) 0 = (⟨4096, by decide⟩ : Fin 4097) :=
  Fin.ext (by have h : (i 0).val < 1 := (i 0).isLt; show 4096 + (i 0).val = 4096; omega)

/-- The reference's clamped estimate at column `b`: it divides by two where the specification multiplies by one half. -/
theorem hat_stage (i : S1x4096.Idx) :
    val_main_v42 (F := Ideal) x1 x2 x3 x4 x5 x6 x7 x8 x9 i = Cell.boundaryHat x8 x7 x6 (biasR x9) (colR x1 (i 1)) (colR x3 (i 1)) (colR x2 (i 1)) (x4 (ix2 (0 : Fin 1) (i 1))) (x5 (ix2 (0 : Fin 1) (i 1))) := by
  simp only [val_main_v42_apply, val_main_call0_v4_apply, val_main_call0_v3_apply, val_main_cst_9_apply, val_main_call0_v2_apply, val_main_call0_v1_apply, val_main_call0_v0_apply, val_main_cst_8_apply, val_main_v41_apply, val_main_v40_apply, val_main_cst_7_apply, val_main_v39_apply, val_main_v38_apply, val_main_cst_6_apply, val_main_v37_apply, val_main_v36_apply, val_main_cst_5_apply, val_main_v35_apply, pre_stage]
  rw [last_row]
  show min Cell.one (max Cell.zero (Ideal.div _ Cell.two)) = _
  rw [Cell.div_two]
  rfl

/-- The reference's boundary at column `b`: the estimate plus (its threshold bit minus itself) is the threshold bit. -/
theorem boundary_stage (i : S1x4096.Idx) :
    val_main_v86 (F := Ideal) x1 x2 x3 x4 x5 x6 x7 x8 x9 i = Cell.boundaryNew x8 x7 x6 (biasR x9) (colR x1 (i 1)) (colR x3 (i 1)) (colR x2 (i 1)) (x4 (ix2 (0 : Fin 1) (i 1))) (x5 (ix2 (0 : Fin 1) (i 1))) := by
  simp only [val_main_v86_apply, val_main_v85_apply, val_main_v84_apply, val_main_v83_apply, val_main_v82_apply, val_main_cst_16_apply, hat_stage]
  exact Cell.straight_through _ _ (Cell.boundaryHat_mem _ _ _ _ _ _ _ _ _).1 (Cell.boundaryHat_mem _ _ _ _ _ _ _ _ _).2

/-! ## The three results as whole arrays -/

theorem hidden_eq : val_main_v81 (F := Ideal) x0 x1 x2 x3 x4 x5 x6 x7 x8 x9 = Cell.hiddenArr x0 x1 x2 x3 x4 x5 x6 x7 x8 x9 :=
  funext fun i => hidden_stage x0 x1 x2 x3 x4 x5 x6 x7 x8 x9 i

theorem cell_eq : val_main_v62 (F := Ideal) x0 x1 x2 x3 x4 x5 x6 x7 x8 x9 = Cell.cellArr x0 x1 x2 x3 x4 x5 x6 x7 x8 x9 :=
  funext fun i => cell_stage x0 x1 x2 x3 x4 x5 x6 x7 x8 x9 i

theorem boundary_eq : val_main_v86 (F := Ideal) x1 x2 x3 x4 x5 x6 x7 x8 x9 = Cell.boundaryArr x1 x2 x3 x4 x5 x6 x7 x8 x9 :=
  funext fun i => boundary_stage x1 x2 x3 x4 x5 x6 x7 x8 x9 i

end Cert.ReferenceIdeal.Stages

end
-- ==== Proof.lean ====
/-
  A hierarchical multiscale LSTM cell: one fused kernel against the plain formula.

  For a batch of 4096 columns the cell forms a pre-activation of 4·1024 + 1 rows per column,

      pre = W01·h_bottom + z·(U21·h_top) + z_bottom·(U11·h) + bias,

  passes its four 1024-row bands through the logistic function (forget, input and output gates) and tanh (the
  candidate), and combines them with the old cell state c and hidden state h into the new ones,

      c' = z·(i·g) + ((1 − z)(1 − z_bottom))·c + ((1 − z)·z_bottom)·(f·c + i·g),
      h' = (z·o)·tanh c' + ((1 − z)(1 − z_bottom))·h + (((1 − z)·z_bottom)·o)·tanh c';

  the last row, mapped affinely and clamped to [0, 1], is thresholded at one half to give the new boundary z'.

  The kernel computes this 128 columns at a time over a grid of 32 points, with the three weight matrices resident and
  fed to the products in a narrower float format; the reference computes the whole batch at once. On the extended reals
  the two agree entry by entry, for every input:
    · a change of float format is the identity, and a product into a zero accumulator is the same sum as the host's
      product, so the pre-activations agree;
    · the reference spells the logistic function as 1 / (1 + e^(−x)), which is the same function at every extended
      real, the infinities included;
    · the kernel multiplies the last row by one half where the reference divides it by two;
    · the reference returns the estimate plus (its threshold bit minus the estimate), which is the threshold bit
      because the estimate, being clamped, is a real number in [0, 1]; the kernel returns the threshold bit itself;
    · no column of the batch reads another, so tiling the batch by columns changes nothing.
  No step uses that the inputs are finite.

  The statement's five parts: the two kernel programs run and leave their arguments alone (their generated frames); the
  reference does too (its generated run); the idealized kernel is the kernel's own text read on the extended reals, no
  operation rewritten; and the idealized kernel and reference end with equal results (`algebraic`): both end at the
  whole-batch specification `Cell.hiddenArr`, `Cell.cellArr`, `Cell.boundaryArr` of their arguments.
-/
import proofs.«136361_j13778255086021_1_alg».proof.Defs
import proofs.«136361_j13778255086021_1_alg».proof.Proof.Gen.Kernel
import proofs.«136361_j13778255086021_1_alg».proof.Proof.Gen.Kernel.Skeleton
import proofs.«136361_j13778255086021_1_alg».proof.Proof.Gen.Kernel.Launch
import proofs.«136361_j13778255086021_1_alg».proof.Proof.Gen.Kernel.Points
import proofs.«136361_j13778255086021_1_alg».proof.Proof.Gen.Kernel.Frame
import proofs.«136361_j13778255086021_1_alg».proof.Proof.Gen.KernelIdeal
import proofs.«136361_j13778255086021_1_alg».proof.Proof.Gen.KernelIdeal.Skeleton
import proofs.«136361_j13778255086021_1_alg».proof.Proof.Gen.KernelIdeal.Launch
import proofs.«136361_j13778255086021_1_alg».proof.Proof.Gen.KernelIdeal.Points
import proofs.«136361_j13778255086021_1_alg».proof.Proof.Gen.KernelIdeal.Frame
import proofs.«136361_j13778255086021_1_alg».proof.Proof.Gen.ReferenceIdeal
import proofs.«136361_j13778255086021_1_alg».proof.Proof.Gen.Pre_finite_inputs
import proofs.«136361_j13778255086021_1_alg».proof.Proof.Gen.KernelIdeal.Value
import proofs.«136361_j13778255086021_1_alg».proof.Proof.Gen.ReferenceIdeal.Run
import proofs.«136361_j13778255086021_1_alg».proof.Proof.Gen.ReferenceIdeal.Read
import proofs.«136361_j13778255086021_1_alg».proof.Proof.CellSpec
import proofs.«136361_j13778255086021_1_alg».proof.Proof.KernelArrays
import proofs.«136361_j13778255086021_1_alg».proof.Proof.ReferenceStages
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealized kernel is the kernel's own text: no operation was rewritten. -/
theorem preserves : Cert.preserves_Kernel_KernelIdeal := trivial

/-- From memories that agree on the ten arguments the two programs end with equal results: each result of the
    reference is the whole-batch specification of its arguments, which are the kernel's. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ⟨(h c).1.trans ?_, (h c).2.1.trans ?_,
    (h c).2.2.1.trans ?_, (h c).2.2.2⟩) (Cert.ReferenceIdeal.Value.run (F := Ideal) m' ρ')
  · obtain ⟨a0, a1, a2, a3, a4, a5, a6, a7, a8, a9⟩ := hagree c
    rw [Cert.ReferenceIdeal.Read.val_main_v81_eq, Cert.ReferenceIdeal.Stages.hidden_eq, a0, a1, a2, a3, a4, a5, a6, a7, a8, a9]
  · obtain ⟨a0, a1, a2, a3, a4, a5, a6, a7, a8, a9⟩ := hagree c
    rw [Cert.ReferenceIdeal.Read.val_main_v62_eq, Cert.ReferenceIdeal.Stages.cell_eq, a0, a1, a2, a3, a4, a5, a6, a7, a8, a9]
  · obtain ⟨a0, a1, a2, a3, a4, a5, a6, a7, a8, a9⟩ := hagree c
    rw [Cert.ReferenceIdeal.Read.val_main_v86_eq, Cert.ReferenceIdeal.Stages.boundary_eq, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
